-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 33
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S_, .f32⟩
  | .hbm, ⟨23, _⟩ => ⟨S1250000, .f32⟩
  | .hbm, ⟨24, _⟩ => ⟨S_, .f32⟩
  | .hbm, ⟨25, _⟩ => ⟨S100000, .f32⟩
  | .hbm, ⟨26, _⟩ => ⟨S1250000x1, .i32⟩
  | .hbm, ⟨27, _⟩ => ⟨S100000, .f32⟩
  | .hbm, ⟨28, _⟩ => ⟨S100000x1, .f32⟩
  | .hbm, ⟨29, _⟩ => ⟨S64x64, .f32⟩
  | .hbm, ⟨30, _⟩ => ⟨S64x64, .f32⟩
  | .hbm, ⟨31, _⟩ => ⟨S1x64, .f32⟩
  | .hbm, ⟨32, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S_, .f32⟩
  | .hbm, ⟨23, _⟩ => ⟨S1250000, .f32⟩
  | .hbm, ⟨24, _⟩ => ⟨S_, .f32⟩
  | .hbm, ⟨25, _⟩ => ⟨S100000, .f32⟩
  | .hbm, ⟨26, _⟩ => ⟨S1250000x1, .i32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S64x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  One mean-aggregating graph-convolution layer, entry by entry, on the extended reals.

  Node `p` (of 100000) has a feature row `x p ·` (64 entries), an aggregated neighbour row `agg p ·` and a
  neighbour count `deg p`. Output entry `(p, q)` is

      max ( (Σ_k x p k · Wself q k  +  b q)  +  Σ_k (agg p k / max 1 (deg p)) · Wneigh q k ,  0 ).

  The same entry is also written over the arrays in the layout a tiled kernel is handed: both weight matrices
  transposed (`WsT k q = Wself q k`), the counts as a column `[100000, 1]`, the bias as a row `[1, 64]`.
  `staged_eq_layer` says the two spellings agree whenever the laid-out arrays hold the same numbers; it is
  pure re-indexing, so no finiteness of the entries is needed.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx
open scoped BigOperators

/-- Node features and the layer's output: 100000 nodes by 64 channels. -/
abbrev NodeFeat : Shape := ⟨2, ![100000, 64]⟩
/-- One number per node, as a column. -/
abbrev NodeCol : Shape := ⟨2, ![100000, 1]⟩
/-- One number per node, as a vector. -/
abbrev NodeVec : Shape := ⟨1, ![100000]⟩
/-- A 64 by 64 weight matrix. -/
abbrev Weight : Shape := ⟨2, ![64, 64]⟩
/-- The bias as a row. -/
abbrev BiasRow : Shape := ⟨2, ![1, 64]⟩
/-- The bias as a vector. -/
abbrev BiasVec : Shape := ⟨1, ![64]⟩

/-- The float word of 1.0, the floor put under a neighbour count before dividing by it. -/
abbrev one32 : EReal := Ideal.ofBits .f32 0x3F800000#32
/-- The float word of 0.0, the rectifier's floor. -/
abbrev zero32 : EReal := Ideal.ofBits .f32 0x00000000#32

/-- Entry `(p, q)` of the layer over the laid-out arrays: weights transposed, counts a column, bias a row. -/
def stagedAt (X A : NodeFeat.Idx → EReal) (D : NodeCol.Idx → EReal) (WsT : Weight.Idx → EReal)
    (B : BiasRow.Idx → EReal) (WnT : Weight.Idx → EReal) (p : Fin 100000) (q : Fin 64) : EReal :=
  max ((∑ k : Fin 64, X (ix2 p k) * WsT (ix2 k q)) + B (ix2 (0 : Fin 1) q)
        + ∑ k : Fin 64, Ideal.div (A (ix2 p k)) (max one32 (D (ix2 p (0 : Fin 1)))) * WnT (ix2 k q))
      zero32

/-- The layer over the laid-out arrays, as an array. -/
def staged (X A : NodeFeat.Idx → EReal) (D : NodeCol.Idx → EReal) (WsT : Weight.Idx → EReal)
    (B : BiasRow.Idx → EReal) (WnT : Weight.Idx → EReal) : NodeFeat.Idx → EReal :=
  fun i => stagedAt X A D WsT B WnT (i 0) (i 1)

/-- Entry `(p, q)` of the layer over the arrays in their own shapes. -/
def layerAt (x agg : NodeFeat.Idx → EReal) (deg : NodeVec.Idx → EReal) (ws : Weight.Idx → EReal)
    (b : BiasVec.Idx → EReal) (wn : Weight.Idx → EReal) (p : Fin 100000) (q : Fin 64) : EReal :=
  max ((∑ k : Fin 64, x (ix2 p k) * ws (ix2 q k)) + b (ix1 q)
        + ∑ k : Fin 64, Ideal.div (agg (ix2 p k)) (max one32 (deg (ix1 p))) * wn (ix2 q k))
      zero32

/-- The layer as an array. -/
def layer (x agg : NodeFeat.Idx → EReal) (deg : NodeVec.Idx → EReal) (ws : Weight.Idx → EReal)
    (b : BiasVec.Idx → EReal) (wn : Weight.Idx → EReal) : NodeFeat.Idx → EReal :=
  fun i => layerAt x agg deg ws b wn (i 0) (i 1)

/-- Entry by entry: with the column read as the counts, the row as the bias and each transposed matrix as its
    matrix with the coordinates swapped, the laid-out entry is the entry over the arrays' own shapes. -/
theorem stagedAt_eq_layerAt (X A : NodeFeat.Idx → EReal) (D : NodeCol.Idx → EReal) (WsT : Weight.Idx → EReal)
    (B : BiasRow.Idx → EReal) (WnT : Weight.Idx → EReal)
    (deg : NodeVec.Idx → EReal) (ws : Weight.Idx → EReal) (b : BiasVec.Idx → EReal) (wn : Weight.Idx → EReal)
    (hD : ∀ p : Fin 100000, D (ix2 p (0 : Fin 1)) = deg (ix1 p))
    (hWs : ∀ (k q : Fin 64), WsT (ix2 k q) = ws (ix2 q k))
    (hB : ∀ q : Fin 64, B (ix2 (0 : Fin 1) q) = b (ix1 q))
    (hWn : ∀ (k q : Fin 64), WnT (ix2 k q) = wn (ix2 q k)) (p : Fin 100000) (q : Fin 64) :
    stagedAt X A D WsT B WnT p q = layerAt X A deg ws b wn p q := by
  unfold stagedAt layerAt
  rw [hD, hB]
  simp only [hWs, hWn]

/-- If the laid-out arrays hold the same numbers — the column the counts, the row the bias, each transposed
    matrix its matrix with the coordinates swapped — the two spellings of the layer are one array. -/
theorem staged_eq_layer (X A : NodeFeat.Idx → EReal) (D : NodeCol.Idx → EReal) (WsT : Weight.Idx → EReal)
    (B : BiasRow.Idx → EReal) (WnT : Weight.Idx → EReal)
    (deg : NodeVec.Idx → EReal) (ws : Weight.Idx → EReal) (b : BiasVec.Idx → EReal) (wn : Weight.Idx → EReal)
    (hD : ∀ p : Fin 100000, D (ix2 p (0 : Fin 1)) = deg (ix1 p))
    (hWs : ∀ (k q : Fin 64), WsT (ix2 k q) = ws (ix2 q k))
    (hB : ∀ q : Fin 64, B (ix2 (0 : Fin 1) q) = b (ix1 q))
    (hWn : ∀ (k q : Fin 64), WnT (ix2 k q) = wn (ix2 q k)) :
    staged X A D WsT B WnT = layer X A deg ws b wn :=
  funext fun i => stagedAt_eq_layerAt X A D WsT B WnT deg ws b wn hD hWs hB hWn (i 0) (i 1)

end Cert.Gcn

end
-- ==== Proof.RefLayer.lean ====
/-
  The reference program's result, read entry by entry, is the graph-convolution layer of `Spec.lean` over the
  argument arrays, the scatter-added neighbour rows and the scatter-added neighbour counts.

  Stage by stage: the rectifier is `max · 0`; under it the sum of three terms; the two matrix products are sums over the
  contracted coordinate `k` of 64, each against a transposed weight matrix (so entry `(k, q)` of the transposed
  matrix is entry `(q, k)` of the argument); the bias is broadcast along the rows; the mean divides the aggregated
  row by the count with 1.0 put under it, the count broadcast along the row. The gather and the two scatter-adds
  that produce the aggregate and the counts are not opened: they enter only as the arrays `val_main_v13` and
  `val_main_v17`.
-/
import proofs.«120183_j60043642798088_1_alg».proof.Proof.Gen.ReferenceIdeal.Read
import proofs.«120183_j60043642798088_1_alg».proof.Proof.Spec

noncomputable section

namespace Cert.ReferenceIdeal.RefLayer

open Cert.ReferenceIdeal Cert.ReferenceIdeal.Gen Cert.ReferenceIdeal.Read
open Idealize.ShloMosaic Idealize.ShloMosaic.ValueIdx Cert.Gcn
open scoped BigOperators

/-- Entry `(p, q)` of the reference's result is entry `(p, q)` of the layer. -/
theorem result_at (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (p : Fin 100000) (q : Fin 64) :
    val_main_v30 (F := Ideal) x0 x1 x2 x3 x4 (ix2 p q)
      = layerAt x0 (val_main_v13 (F := Ideal) x0 x1) (val_main_v17 (F := Ideal) x1) x2 x3 x4 p q := by
  -- the row of the left factor and the column of the right factor, for both products
  have eL1 : ∀ k : Fin 64, lidx_main_v23 (ix2 p q) k = ix2 p k := fun k =>
    funext fun a => Fin.ext (by match a with | ⟨0, _⟩ => rfl | ⟨1, _⟩ => rfl)
  have eR1 : ∀ k : Fin 64, idx_main_v22 (ridx_main_v23 (ix2 p q) k) = ix2 q k := fun k =>
    funext fun a => Fin.ext (by match a with | ⟨0, _⟩ => rfl | ⟨1, _⟩ => rfl)
  have eL2 : ∀ k : Fin 64, lidx_main_v28 (ix2 p q) k = ix2 p k := fun k =>
    funext fun a => Fin.ext (by match a with | ⟨0, _⟩ => rfl | ⟨1, _⟩ => rfl)
  have eR2 : ∀ k : Fin 64, idx_main_v27 (ridx_main_v28 (ix2 p q) k) = ix2 q k := fun k =>
    funext fun a => Fin.ext (by match a with | ⟨0, _⟩ => rfl | ⟨1, _⟩ => rfl)
  -- the bias entry under column q, and the count under row p
  have eB : idx_main_v24 (idx_main_v25 (ix2 p q)) = ix1 q :=
    funext fun a => Fin.ext (by match a with | ⟨0, _⟩ => rfl)
  have eD : ∀ k : Fin 64, idx_main_v19 (idx_main_v20 (ix2 p k)) = ix1 p := fun k =>
    funext fun a => Fin.ext (by match a with | ⟨0, _⟩ => rfl)
  rw [val_main_v30_apply, val_main_v29_apply, val_main_v26_apply, val_main_v23_apply, val_main_v28_apply,
    val_main_v25_apply, val_main_v24_apply, val_main_call1_v0_apply, val_main_call1_cst_apply]
  -- the self product: features of row p against row q of the self weights
  have hA : (∑ k : Fin 64, x0 (lidx_main_v23 (ix2 p q) k) * val_main_v22 (F := Ideal) x2 (ridx_main_v23 (ix2 p q) k))
      = ∑ k : Fin 64, x0 (ix2 p k) * x2 (ix2 q k) :=
    Finset.sum_congr rfl fun k _ => by
      rw [val_main_v22_apply]
      exact congrArg₂ (· * ·) (congrArg x0 (eL1 k)) (congrArg x2 (eR1 k))
  -- the bias under column q
  have hB : x3 (idx_main_v24 (idx_main_v25 (ix2 p q))) = x3 (ix1 q) := congrArg x3 eB
  -- the neighbour product: the mean of row p against row q of the neighbour weights
  have hC : (∑ k : Fin 64, val_main_v21 (F := Ideal) x0 x1 (lidx_main_v28 (ix2 p q) k) * val_main_v27 (F := Ideal) x4 (ridx_main_v28 (ix2 p q) k))
      = ∑ k : Fin 64, Ideal.div (val_main_v13 (F := Ideal) x0 x1 (ix2 p k)) (max one32 (val_main_v17 (F := Ideal) x1 (ix1 p))) * x4 (ix2 q k) :=
    Finset.sum_congr rfl fun k _ => by
      rw [val_main_v27_apply, val_main_v21_apply, val_main_v20_apply, val_main_v19_apply, val_main_v18_apply,
        val_main_call0_v1_apply, val_main_call0_v0_apply, val_main_cst_3_apply, eL2 k, eD k, eR2 k]
      rfl
  rw [hA, hB, hC]
  rfl

/-- The reference's result array is the layer. -/
theorem result_eq (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v30 (F := Ideal) x0 x1 x2 x3 x4
      = layer x0 (val_main_v13 (F := Ideal) x0 x1) (val_main_v17 (F := Ideal) x1) x2 x3 x4 := by
  funext i
  obtain ⟨p, q, rfl⟩ : ∃ (p : Fin 100000) (q : Fin 64), i = ix2 p q := ⟨i 0, i 1, eq_ix2 i⟩
  exact result_at x0 x1 x2 x3 x4 p q

end Cert.ReferenceIdeal.RefLayer

end
-- ==== Proof.TileBody.lean ====
/-
  What the kernel body computes on one tile of 10000 nodes, entry by entry, on the extended reals.

  The body is handed six blocks: 10000 feature rows `x`, the same rows of the aggregate `a`, their counts as a
  column `d`, the two weight matrices already transposed (`wsT`, `wnT`) and the bias as a row `b`. Narrowing to
  bf16 is the identity on extended reals, and each matrix product into a zero accumulator is the plain sum over
  the contracted coordinate. So entry `(p, q)` of what it stores is

      max ( (Σ_k x p k · wsT k q  +  b 0 q)  +  Σ_k (a p k / max 1 (d p 0)) · wnT k q ,  0 ).
-/
import proofs.«120183_j60043642798088_1_alg».proof.Proof.Gen.KernelIdeal.Skeleton
import proofs.«120183_j60043642798088_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen
open Idealize.ShloMosaic Idealize.ShloMosaic.ValueIdx Cert.Gcn
open scoped BigOperators

/-! ## The tile's matrix product as a sum -/

/-- The left factor's row is the output's row … -/
theorem lhs_tile_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … its column the contracted coordinate … -/
theorem lhs_tile_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- … the right factor's row the contracted coordinate … -/
theorem rhs_tile_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and its column the output's column. -/
theorem rhs_tile_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000, 64] by [64, 64] product into the zero accumulator, at entry `(p, q)`: the sum over `k` of 64 of the
    left factor at `(p, k)` times the right at `(k, q)`, whatever formats the factors were narrowed to. -/
theorem product_at {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul dot_S10000x64_S64x64_S10000x64_1_0_0_1_n_n none l r (constant S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_tile_0 _ _).trans hk
    | ⟨1, _⟩ => exact rhs_tile_1 _ _)
  rw [el, er]

/-! ## The two broadcasts at an entry -/

/-- The bias row stretched down the tile reads the row's entry under the column. -/
theorem bias_at (b : FVec Ideal S1x64 .f32) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-- The count column stretched along the row reads the column's entry beside the row. -/
theorem count_at (d : FVec Ideal S10000x1 .f32) (p : Fin 10000) (k : Fin 64) :
    broadcastTo S10000x64 d broadcasts_S10000x1_S10000x64 (ix2 p k) = d (ix2 p (0 : Fin 1)) :=
  broadcastTo_apply d broadcasts_S10000x1_S10000x64 (ix2 p k) (ix2 p (0 : Fin 1)) (fun a => by
    match a with
    | ⟨0, _⟩ => show p.val = if (10000 : Nat) = 1 then 0 else p.val; rw [if_neg (by decide)]
    | ⟨1, _⟩ => show (0 : Nat) = if (1 : Nat) = 1 then 0 else k.val; rw [if_pos rfl])

/-! ## The stored value at an entry -/

/-- Entry `(p, q)` of the tile's result, from the six blocks. -/
def tileAt (x a : S10000x64.Idx → EReal) (d : S10000x1.Idx → EReal) (wsT : S64x64.Idx → EReal)
    (b : S1x64.Idx → EReal) (wnT : S64x64.Idx → EReal) (p : Fin 10000) (q : Fin 64) : EReal :=
  max ((∑ k : Fin 64, x (ix2 p k) * wsT (ix2 k q)) + b (ix2 (0 : Fin 1) q)
        + ∑ k : Fin 64, Ideal.div (a (ix2 p k)) (max one32 (d (ix2 p (0 : Fin 1)))) * wnT (ix2 k q))
      zero32

/-- The body's stored value at entry `(p, q)` is `tileAt` of the blocks it loaded: counts, aggregate, features,
    self weights, neighbour weights, bias, in the order the body loads them. -/
theorem stored_at (v0 : Vec Ideal S10000x1 .f32) (v4 v8 : Vec Ideal S10000x64 .f32) (v11 v14 : Vec Ideal S64x64 .f32)
    (v19 : Vec Ideal S1x64 .f32) (p : Fin 10000) (q : Fin 64) :
    k0_pay1 (F := Ideal) v0 v4 v8 v11 v14 v19 (ix2 p q) = tileAt v8 v4 v0 v11 v19 v14 p q := by
  unfold k0_pay1
  simp only [shapeCast_self]
  rw [maximumf_apply, addf_apply, addf_apply, product_at, product_at, bias_at, broadcast_apply]
  simp only [truncf_apply, divf_apply, count_at, maximumf_apply, broadcast_apply]
  rfl

end Cert.KernelIdeal.Tile

end
-- ==== Proof.WholeArray.lean ====
/-
  From tiles to the whole output array.

  The kernel runs over ten tiles of 10000 nodes. At tile `t` it is handed rows `t·10000 … t·10000 + 9999` of the
  features, of the aggregate and of the count column, and the same two weight matrices and bias row every time;
  it writes rows `t·10000 …` of the output. So what tile `t` writes back is block `t` of ONE array, the layer of
  `Spec.lean` over the arrays the region is entered with; the ten blocks cover all 100000 rows (row `r` lies in
  tile `r / 10000`), hence the output array ends holding that layer.

  The arrays the region is entered with are host re-layouts of the arguments: each weight matrix transposed, the
  bias vector as a row, the neighbour counts as a column. Read at an entry these give the layer over the
  arguments' own shapes, the aggregate and the counts kept as the arrays the host operations left.
-/
import proofs.«120183_j60043642798088_1_alg».proof.Proof.Gen.KernelIdeal.Value
import proofs.«120183_j60043642798088_1_alg».proof.Proof.TileBody
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Whole

open Cert.KernelIdeal Cert.KernelIdeal.Gen Cert.KernelIdeal.Tile
open Idealize.ShloMosaic Idealize.ShloMosaic.TcCoe Idealize.SL.Sem Idealize.ShloMosaic.StableHlo
open Idealize.ShloMosaic.ValueIdx Cert.Gcn
open Idealize.ShloMosaic.Pipeline (Dat)
open scoped BigOperators

variable (m : (ℓ : Loc nD τ sig) → Buf (Elt Ideal) ℓ) (ρ : Dev nD → PrngReg)

/-! ## Where each tile's blocks sit -/

theorem origin : (![0, 0] : Fin 2 → Nat) = fun _ => 0 := funext fun a => by fin_cases a <;> rfl

/-- The printed index maps over the ten tiles: the three row-tiled inputs and the output sit at block row `t`,
    block column 0; the weights and the bias are always block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of tile `T` is node `T·10000 + p`. -/
def node (T : Nat) (hT : T < 10) (p : Fin 10000) : Fin 100000 :=
  ⟨T * 10000 + p.val, by have := p.isLt; omega⟩

/-! ## One tile's result is its block of the layer -/

/-- If the six blocks hold rows `T·10000 …` of the row-tiled arrays and the whole of the small ones, the stored
    value at tile entry `(p, q)` is the laid-out layer at node `T·10000 + p`, channel `q`. -/
theorem point_eq (X A : NodeFeat.Idx → EReal) (D : NodeCol.Idx → EReal) (WsT : Weight.Idx → EReal)
    (B : BiasRow.Idx → EReal) (WnT : Weight.Idx → EReal)
    (xb ab : Vec Ideal S10000x64 .f32) (db : Vec Ideal S10000x1 .f32) (wsb wnb : Vec Ideal S64x64 .f32)
    (bb : Vec Ideal S1x64 .f32) (T : Nat) (hT : T < 10)
    (hx : ∀ (p : Fin 10000) (k : Fin 64), xb (ix2 p k) = X (ix2 (node T hT p) k))
    (ha : ∀ (p : Fin 10000) (k : Fin 64), ab (ix2 p k) = A (ix2 (node T hT p) k))
    (hd : ∀ p : Fin 10000, db (ix2 p (0 : Fin 1)) = D (ix2 (node T hT p) (0 : Fin 1)))
    (hws : ∀ k q : Fin 64, wsb (ix2 k q) = WsT (ix2 k q))
    (hb : ∀ q : Fin 64, bb (ix2 (0 : Fin 1) q) = B (ix2 (0 : Fin 1) q))
    (hwn : ∀ k q : Fin 64, wnb (ix2 k q) = WnT (ix2 k q))
    (p : Fin 10000) (q : Fin 64) :
    k0_pay1 (F := Ideal) db ab xb wsb wnb bb (ix2 p q) = stagedAt X A D WsT B WnT (node T hT p) q := by
  rw [stored_at]
  unfold tileAt stagedAt
  rw [hd, hb]
  simp only [hx, ha, hws, hwn]

/-! ## A tile's blocks, read off any array

  Each is stated for an arbitrary array `Y` in the window's place: which numbers the array holds plays no part in
  where a block sits. -/

/-- Tile `t`'s feature block holds rows `T·10000 …` of the array behind window 0. -/
theorem rows0 (t : Fin cfg0.N) (Y : S100000x64.Idx → Elt Ideal .f32) (T : Nat) (hT : T < 10)
    (e0 : win0_0.index t (0 : Fin 2) = T) (e1 : win0_0.index t (1 : Fin 2) = 0) (p : Fin 10000) (k : Fin 64) :
    ((cfg0.win 0).blk t).view.read (Elt Ideal) Y (ix2 p k) = Y (ix2 (node T hT p) k) := by
  show Y (((cfg0.win 0).blk t).view.emb (ix2 p k)) = Y (ix2 (node T hT p) k)
  refine congrArg Y (funext fun a => Fin.ext ?_)
  match a with
  | ⟨0, _⟩ => show win0_0.index t (0 : Fin 2) * 10000 + 1 * p.val = T * 10000 + p.val; rw [e0]; omega
  | ⟨1, _⟩ => show win0_0.index t (1 : Fin 2) * 64 + 1 * k.val = k.val; rw [e1]; omega

/-- Tile `t`'s aggregate block holds rows `T·10000 …` of the array behind window 1. -/
theorem rows1 (t : Fin cfg0.N) (Y : S100000x64.Idx → Elt Ideal .f32) (T : Nat) (hT : T < 10)
    (e0 : win0_1.index t (0 : Fin 2) = T) (e1 : win0_1.index t (1 : Fin 2) = 0) (p : Fin 10000) (k : Fin 64) :
    ((cfg0.win 1).blk t).view.read (Elt Ideal) Y (ix2 p k) = Y (ix2 (node T hT p) k) := by
  show Y (((cfg0.win 1).blk t).view.emb (ix2 p k)) = Y (ix2 (node T hT p) k)
  refine congrArg Y (funext fun a => Fin.ext ?_)
  match a with
  | ⟨0, _⟩ => show win0_1.index t (0 : Fin 2) * 10000 + 1 * p.val = T * 10000 + p.val; rw [e0]; omega
  | ⟨1, _⟩ => show win0_1.index t (1 : Fin 2) * 64 + 1 * k.val = k.val; rw [e1]; omega

/-- Tile `t`'s count block holds rows `T·10000 …` of the column behind window 2. -/
theorem rows2 (t : Fin cfg0.N) (Y : S100000x1.Idx → Elt Ideal .f32) (T : Nat) (hT : T < 10)
    (e0 : win0_2.index t (0 : Fin 2) = T) (e1 : win0_2.index t (1 : Fin 2) = 0) (p : Fin 10000) :
    ((cfg0.win 2).blk t).view.read (Elt Ideal) Y (ix2 p (0 : Fin 1)) = Y (ix2 (node T hT p) (0 : Fin 1)) := by
  show Y (((cfg0.win 2).blk t).view.emb (ix2 p (0 : Fin 1))) = Y (ix2 (node T hT p) (0 : Fin 1))
  refine congrArg Y (funext fun a => Fin.ext ?_)
  match a with
  | ⟨0, _⟩ => show win0_2.index t (0 : Fin 2) * 10000 + 1 * p.val = T * 10000 + p.val; rw [e0]; omega
  | ⟨1, _⟩ => show win0_2.index t (1 : Fin 2) * 1 + 1 * 0 = 0; rw [e1]

/-- Every tile's self-weight block is the whole matrix behind window 3. -/
theorem whole3 (t : Fin cfg0.N) (Y : S64x64.Idx → Elt Ideal .f32)
    (e0 : win0_3.index t (0 : Fin 2) = 0) (e1 : win0_3.index t (1 : Fin 2) = 0) (k q : Fin 64) :
    ((cfg0.win 3).blk t).view.read (Elt Ideal) Y (ix2 k q) = Y (ix2 k q) := by
  show Y (((cfg0.win 3).blk t).view.emb (ix2 k q)) = Y (ix2 k q)
  refine congrArg Y (funext fun a => Fin.ext ?_)
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- Every tile's bias block is the whole row behind window 4. -/
theorem whole4 (t : Fin cfg0.N) (Y : S1x64.Idx → Elt Ideal .f32)
    (e0 : win0_4.index t (0 : Fin 2) = 0) (e1 : win0_4.index t (1 : Fin 2) = 0) (q : Fin 64) :
    ((cfg0.win 4).blk t).view.read (Elt Ideal) Y (ix2 (0 : Fin 1) q) = Y (ix2 (0 : Fin 1) q) := by
  show Y (((cfg0.win 4).blk t).view.emb (ix2 (0 : Fin 1) q)) = Y (ix2 (0 : Fin 1) q)
  refine congrArg Y (funext fun a => Fin.ext ?_)
  match a with
  | ⟨0, _⟩ => show win0_4.index t (0 : Fin 2) * 1 + 1 * 0 = 0; rw [e0]
  | ⟨1, _⟩ => show win0_4.index t (1 : Fin 2) * 64 + 1 * q.val = q.val; rw [e1]; omega

/-- Every tile's neighbour-weight block is the whole matrix behind window 5. -/
theorem whole5 (t : Fin cfg0.N) (Y : S64x64.Idx → Elt Ideal .f32)
    (e0 : win0_5.index t (0 : Fin 2) = 0) (e1 : win0_5.index t (1 : Fin 2) = 0) (k q : Fin 64) :
    ((cfg0.win 5).blk t).view.read (Elt Ideal) Y (ix2 k q) = Y (ix2 k q) := by
  show Y (((cfg0.win 5).blk t).view.emb (ix2 k q)) = Y (ix2 k q)
  refine congrArg Y (funext fun a => Fin.ext ?_)
  match a with
  | ⟨0, _⟩ => show win0_5.index t (0 : Fin 2) * 64 + 1 * k.val = k.val; rw [e0]; omega
  | ⟨1, _⟩ => show win0_5.index t (1 : Fin 2) * 64 + 1 * q.val = q.val; rw [e1]; omega

/-- The layer over the arrays the region is entered with. -/
abbrev found (c : Dev nD) : S100000x64.Idx → EReal :=
  staged (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- What tile `t` writes back is block `t` of `found`. -/
theorem flushed_eq (c : Dev nD) (t : Fin cfg0.N) :
    (dats m 0 c).flushed 6 t = ((cfg0.win 6).blk t).view.read (Elt Ideal) (found m c) := by
  rw [Value.flushed6]
  unfold out0_6
  rw [View.canon_unit_zero origin]
  simp only [View.ld_unit_zero (S := S10000x64) origin, View.ld_unit_zero (S := S10000x1) origin,
    View.ld_unit_zero (S := S64x64) origin, View.ld_unit_zero (S := S1x64) origin]
  obtain ⟨e00, e01, e10, e11, e20, e21, e30, e31, e40, e41, e50, e51, e60, e61⟩ := block_index t
  have ht : t.val < 10 := t.isLt
  funext j
  have hj0 : (j 0).val < 10000 := (j 0).isLt
  have hj1 : (j 1).val < 64 := (j 1).isLt
  -- the entry's coordinates inside the tile
  have ej : (cfg0.win 6).xinj (grid0.coords t) j = ix2 (⟨(j 0).val, hj0⟩ : Fin 10000) (⟨(j 1).val, hj1⟩ : Fin 64) :=
    funext fun a => Fin.ext (by match a with | ⟨0, _⟩ => rfl | ⟨1, _⟩ => rfl)
  show k0_pay1 (F := Ideal) (iblk m c 2 t) (iblk m c 1 t) (iblk m c 0 t) (iblk m c 3 t) (iblk m c 5 t) (iblk m c 4 t)
      ((cfg0.win 6).xinj (grid0.coords t) j)
    = found m c (((cfg0.win 6).blk t).view.emb j)
  rw [ej]
  refine (point_eq (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (iblk m c 0 t) (iblk m c 1 t) (iblk m c 2 t) (iblk m c 3 t) (iblk m c 5 t) (iblk m c 4 t) t.val ht ?_ ?_ ?_ ?_ ?_ ?_
    ⟨(j 0).val, hj0⟩ ⟨(j 1).val, hj1⟩).trans ?_
  · exact fun p k => rows0 t (V m c (Pipeline.arrRef spec0 0)) t.val ht e00 e01 p k
  · exact fun p k => rows1 t (V m c (Pipeline.arrRef spec0 1)) t.val ht e10 e11 p k
  · exact fun p => rows2 t (V m c (Pipeline.arrRef spec0 2)) t.val ht e20 e21 p
  · exact fun k q => whole3 t (V m c (Pipeline.arrRef spec0 3)) e30 e31 k q
  · exact fun q => whole4 t (V m c (Pipeline.arrRef spec0 4)) e40 e41 q
  · exact fun k q => whole5 t (V m c (Pipeline.arrRef spec0 5)) e50 e51 k q
  · have h0 : (((cfg0.win 6).blk t).view.emb j) 0 = node t.val ht ⟨(j 0).val, hj0⟩ :=
      Fin.ext (by show win0_6.index t (0 : Fin 2) * 10000 + 1 * (j 0).val = t.val * 10000 + (j 0).val; rw [e60]; omega)
    have h1 : (((cfg0.win 6).blk t).view.emb j) 1 = (⟨(j 1).val, hj1⟩ : Fin 64) :=
      Fin.ext (by show win0_6.index t (1 : Fin 2) * 64 + 1 * (j 1).val = (j 1).val; rw [e61]; omega)
    show _ = stagedAt _ _ _ _ _ _ ((((cfg0.win 6).blk t).view.emb j) 0) ((((cfg0.win 6).blk t).view.emb j) 1)
    rw [h0, h1]

/-! ## The ten blocks cover the array -/

/-- A node's row is in tile `t`'s block iff each coordinate is in the block's range. -/
theorem mem_block (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v22).slice (win0_6.rect t)).set ↔ _
  rw [View.set_slice_whole, Rect.mem_set_unit]
  exact Iff.rfl

/-- Every entry of the output is in some tile's block: row `r` in tile `r / 10000`. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  let t : Fin cfg0.N := ⟨(i 0).val / 10000, by omega⟩
  obtain ⟨-, -, -, -, -, -, -, -, -, -, -, -, e60, e61⟩ := block_index t
  have e60' : win0_6.index t (0 : Fin 2) = (i 0).val / 10000 := e60
  refine ⟨t, flush0_6 t, ?_⟩
  rw [mem_block]
  intro a
  match a with
  | ⟨0, _⟩ => show win0_6.index t (0 : Fin 2) * 10000 ≤ (i 0).val ∧ (i 0).val < win0_6.index t (0 : Fin 2) * 10000 + 10000; rw [e60']; omega
  | ⟨1, _⟩ => show win0_6.index t (1 : Fin 2) * 64 ≤ (i 1).val ∧ (i 1).val < win0_6.index t (1 : Fin 2) * 64 + 64; rw [e61]; omega

/-- The output array after the run is the layer over the arrays the region was entered with. -/
theorem final (c : Dev nD) : (dats m 0 c).arrAt 6 cfg0.N = found m c :=
  (dats m 0 c).arrAt_eq_of_cover 6 (found m c) (fun t _ => flushed_eq m c t) covered

/-! ## The re-laid arrays, read at an entry -/

/-- The neighbour counts: one added into a zero vector at every edge's destination node. -/
def counts (e : S2x1250000.Idx → BitVec 32) : S100000.Idx → EReal :=
  Host.scatterAdd (F := Ideal) scatter_S100000_S1250000x1_S1250000_n_0_0_1
    (broadcastInDim S100000 ![] bcast_S_S100000 (constant (F := Ideal) S_ .f32 0x00000000#32))
    (broadcastInDim S1250000x1 ![0] bcast_S1250000_S1250000x1_0
      (shapeCast S1250000 (extractStridedSlice S1x1250000 ![1, 0] e slices_S2x1250000_S1x1250000_1_0) shapeCasts_S1x1250000_S1250000))
    (broadcastInDim S1250000 ![] bcast_S_S1250000 (constant (F := Ideal) S_ .f32 0x3F800000#32))

/-- The count vector the region is entered with. -/
theorem counts_vec (c : Dev nD) : (V m c main_v17 : S100000.Idx → EReal) = counts (m ((c : Thread nD τ).loc main_arg1)) := by
  dsimp only [Gen.V, Gen.hostOps0]; after_results; rfl

/-- The count column beside node `p` is the count of node `p`. -/
theorem counts_col (c : Dev nD) (p : Fin 100000) :
    V m c main_v18 (ix2 p (0 : Fin 1)) = counts (m ((c : Thread nD τ).loc main_arg1)) (ix1 p) := by
  have e : (V m c main_v18 : S100000x1.Idx → EReal)
      = shapeCast S100000x1 (counts (m ((c : Thread nD τ).loc main_arg1))) shapeCasts_S100000_S100000x1 := by
    dsimp only [Gen.V, Gen.hostOps0]; after_results; rfl
  exact (congrFun e (ix2 p (0 : Fin 1))).trans (shapeCast_apply _ shapeCasts_S100000_S100000x1 (ix2 p (0 : Fin 1)) (ix1 p)
    (by rw [Shape.rowMajor_val_one, Shape.rowMajor_val_two]; show p.val = p.val * 1 + 0; omega))

/-- The transposed self weights at `(k, q)` are the self weights at `(q, k)`. -/
theorem wself_T (c : Dev nD) (k q : Fin 64) : V m c main_v19 (ix2 k q) = m ((c : Thread nD τ).loc main_arg2) (ix2 q k) := by
  have e : (V m c main_v19 : S64x64.Idx → EReal) = transpose S64x64 [1, 0] (m ((c : Thread nD τ).loc main_arg2)) transposes_S64x64_S64x64_1_0 := by
    dsimp only [Gen.V, Gen.hostOps0]; after_results
  exact (congrFun e (ix2 k q)).trans (transpose_apply [1, 0] _ transposes_S64x64_S64x64_1_0 (ix2 k q) (ix2 q k)
    (fun b => match b with | ⟨0, _⟩ => rfl | ⟨1, _⟩ => rfl))

/-- The transposed neighbour weights at `(k, q)` are the neighbour weights at `(q, k)`. -/
theorem wneigh_T (c : Dev nD) (k q : Fin 64) : V m c main_v20 (ix2 k q) = m ((c : Thread nD τ).loc main_arg4) (ix2 q k) := by
  have e : (V m c main_v20 : S64x64.Idx → EReal) = transpose S64x64 [1, 0] (m ((c : Thread nD τ).loc main_arg4)) transposes_S64x64_S64x64_1_0 := by
    dsimp only [Gen.V, Gen.hostOps0]; after_results
  exact (congrFun e (ix2 k q)).trans (transpose_apply [1, 0] _ transposes_S64x64_S64x64_1_0 (ix2 k q) (ix2 q k)
    (fun b => match b with | ⟨0, _⟩ => rfl | ⟨1, _⟩ => rfl))

/-- The bias row under channel `q` is the bias vector at `q`. -/
theorem bias_row (c : Dev nD) (q : Fin 64) : V m c main_v21 (ix2 (0 : Fin 1) q) = m ((c : Thread nD τ).loc main_arg3) (ix1 q) := by
  have e : (V m c main_v21 : S1x64.Idx → EReal) = shapeCast S1x64 (m ((c : Thread nD τ).loc main_arg3) : S64.Idx → EReal) shapeCasts_S64_S1x64 := by
    dsimp only [Gen.V, Gen.hostOps0]; after_results; rfl
  exact (congrFun e (ix2 (0 : Fin 1) q)).trans (shapeCast_apply _ shapeCasts_S64_S1x64 (ix2 (0 : Fin 1) q) (ix1 q)
    (by rw [Shape.rowMajor_val_one, Shape.rowMajor_val_two]; show q.val = 0 * 64 + q.val; omega))

/-- Over the arguments' own shapes: the layer of the features, the aggregate and the counts the host operations
    left, and the two weight matrices and the bias as given. -/
theorem found_eq_layer (c : Dev nD) :
    found m c = layer (m ((c : Thread nD τ).loc main_arg0)) (V m c main_v13) (counts (m ((c : Thread nD τ).loc main_arg1)))
      (m ((c : Thread nD τ).loc main_arg2)) (m ((c : Thread nD τ).loc main_arg3)) (m ((c : Thread nD τ).loc main_arg4)) := by
  show staged (V m c main_arg0) (V m c main_v13) (V m c main_v18) (V m c main_v19) (V m c main_v21) (V m c main_v20) = _
  rw [V_main_arg0]
  exact staged_eq_layer _ _ _ _ _ _ _ _ _ _ (counts_col m c) (wself_T m c) (bias_row m c) (wneigh_T m c)

/-! ## The run, read -/

/-- The kernel's run with its result named: the layer; the arguments unchanged. -/
theorem run : θ_run defs (onTc (τ := τ) (main (F := Ideal))) ⟨m, fun _ => 0, ρ⟩ fun r => ∀ c : Dev nD,
      r.2.mem ((c : Thread nD τ).loc main_v22)
        = layer (m ((c : Thread nD τ).loc main_arg0)) (V m c main_v13) (counts (m ((c : Thread nD τ).loc main_arg1)))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (found_eq_layer m c)), (h c).2⟩)
    (Value.run_blocks m ρ)

end Cert.KernelIdeal.Whole

end
-- ==== Proof.lean ====
/-
  A mean-aggregating graph-convolution layer: the tiled kernel against the plain reference, on the extended reals.

  Both programs start with the same host operations on the edge list: gather the source node's feature row for
  each of the 1250000 edges, scatter-add those rows at the destination nodes (the aggregate), and scatter-add ones
  at the destination nodes (the neighbour counts). From there

    * the reference divides each aggregated row by `max 1 count`, multiplies the features by the transposed self
      weights and the means by the transposed neighbour weights, adds the bias in between, and rectifies;
    * the kernel is handed the features, the aggregate, the counts as a column, both weight matrices already
      transposed and the bias as a row, and does the same on ten tiles of 10000 nodes, narrowing the factors of
      its two products to bf16 first.

  On the extended reals narrowing is the identity and a product into a zero accumulator is the plain sum, so both
  results are, entry `(p, q)`,

      max ( (Σ_k x p k · Wself q k  +  b q)  +  Σ_k (agg p k / max 1 (deg p)) · Wneigh q k ,  0 )

  with the same grouping of the outer sum: no law of arithmetic is needed beyond re-indexing, and the finiteness
  of the inputs is never used. The aggregate and the counts are the same host terms of the arguments in both
  programs and are never opened.

  `Spec.lean` states the layer; `RefLayer.lean` reads the reference's result as it; `TileBody.lean` reads the
  kernel body's stored value on one tile; `WholeArray.lean` goes from the ten tiles to the whole array and from the
  re-laid arrays to the arguments. Here the two runs are set side by side. The ideal pass rewrote nothing in this
  kernel, so the idealized kernel is the kernel's own text and `preserves` has nothing to state.
-/
import proofs.«120183_j60043642798088_1_alg».proof.Defs
import proofs.«120183_j60043642798088_1_alg».proof.Proof.Gen.Kernel
import proofs.«120183_j60043642798088_1_alg».proof.Proof.Gen.Kernel.Skeleton
import proofs.«120183_j60043642798088_1_alg».proof.Proof.Gen.Kernel.Launch
import proofs.«120183_j60043642798088_1_alg».proof.Proof.Gen.Kernel.Points
import proofs.«120183_j60043642798088_1_alg».proof.Proof.Gen.Kernel.Frame
import proofs.«120183_j60043642798088_1_alg».proof.Proof.Gen.KernelIdeal
import proofs.«120183_j60043642798088_1_alg».proof.Proof.Gen.KernelIdeal.Skeleton
import proofs.«120183_j60043642798088_1_alg».proof.Proof.Gen.KernelIdeal.Launch
import proofs.«120183_j60043642798088_1_alg».proof.Proof.Gen.KernelIdeal.Points
import proofs.«120183_j60043642798088_1_alg».proof.Proof.Gen.KernelIdeal.Frame
import proofs.«120183_j60043642798088_1_alg».proof.Proof.Gen.ReferenceIdeal
import proofs.«120183_j60043642798088_1_alg».proof.Proof.Gen.Pre_finite_inputs
import proofs.«120183_j60043642798088_1_alg».proof.Proof.Gen.KernelIdeal.Value
import proofs.«120183_j60043642798088_1_alg».proof.Proof.Gen.ReferenceIdeal.Run
import proofs.«120183_j60043642798088_1_alg».proof.Proof.Gen.ReferenceIdeal.Read
import proofs.«120183_j60043642798088_1_alg».proof.Proof.RefLayer
import proofs.«120183_j60043642798088_1_alg».proof.Proof.WholeArray
import Idealize.ShloMosaic.Adequacy
import Idealize.ShloMosaic.Init

noncomputable section

namespace Cert.Proof

open Idealize.ShloMosaic Idealize.ShloMosaic.TcCoe Idealize.SL.Sem Idealize.ShloMosaic.StableHlo

/-! ## The two programs' host heads compute the same arrays -/

/-- The aggregate the kernel's region is entered with is the reference's scatter-added rows: the same gather and
    scatter-add of the same arguments. -/
theorem agg_same (m : (ℓ : Loc Cert.KernelIdeal.nD Cert.KernelIdeal.τ Cert.KernelIdeal.sig) → Buf (Elt Ideal) ℓ)
    (c : Dev Cert.KernelIdeal.nD) :
    Cert.KernelIdeal.Gen.V m c Cert.KernelIdeal.main_v13
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]; after_results; rfl

/-- The neighbour counts of the kernel's host head are the reference's scatter-added ones. -/
theorem deg_same (e : Cert.KernelIdeal.S2x1250000.Idx → BitVec 32) :
    Cert.KernelIdeal.Whole.counts e = Cert.ReferenceIdeal.Read.val_main_v17 (F := Ideal) e := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the layer of its arguments, aggregate and counts (`Whole.run`); the reference's
    at the layer of its own (`RefLayer.result_eq`); the arguments agree and the aggregate and counts are the same
    terms of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefLayer.result_eq,
    (hagree c).1, (hagree c).2.1, (hagree c).2.2.1, (hagree c).2.2.2.1, (hagree c).2.2.2.2,
    agg_same m c, deg_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
